-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S512x4096 32) (main_arg2 : IVec S32x512 32) (main_arg3 : FVec F S32x4096 .f32) (main_arg4 : IVec S4096 32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S1x4096 : Shape := ⟨2, ![1, 4096]⟩
abbrev S2048x1024 : Shape := ⟨2, ![2048, 1024]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 61
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S512x1x4096, .i32⟩
  | .hbm, ⟨11, _⟩ => ⟨S1x8x1, .i32⟩
  | .hbm, ⟨12, _⟩ => ⟨S512x8x4096, .i32⟩
  | .hbm, ⟨13, _⟩ => ⟨S512x8x4096, .i32⟩
  | .hbm, ⟨14, _⟩ => ⟨S512x8x4096, .i32⟩
  | .hbm, ⟨15, _⟩ => ⟨S_, .i32⟩
  | .hbm, ⟨16, _⟩ => ⟨S512x8x4096, .i32⟩
  | .hbm, ⟨17, _⟩ => ⟨S512x8x4096, .i32⟩
  | .hbm, ⟨18, _⟩ => ⟨S4096x4096, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S32x512x1, .i32⟩
  | .hbm, ⟨24, _⟩ => ⟨S1x1x8, .i32⟩
  | .hbm, ⟨25, _⟩ => ⟨S32x512x8, .i32⟩
  | .hbm, ⟨26, _⟩ => ⟨S32x512x8, .i32⟩
  | .hbm, ⟨27, _⟩ => ⟨S32x512x8, .i32⟩
  | .hbm, ⟨28, _⟩ => ⟨S_, .i32⟩
  | .hbm, ⟨29, _⟩ => ⟨S32x512x8, .i32⟩
  | .hbm, ⟨30, _⟩ => ⟨S32x512x8, .i32⟩
  | .hbm, ⟨31, _⟩ => ⟨S32x4096, .i32⟩
  | .hbm, ⟨32, _⟩ => ⟨S_, .i32⟩
  | .hbm, ⟨33, _⟩ => ⟨S32x4096, .i32⟩
  | .hbm, ⟨34, _⟩ => ⟨S32x4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x4096, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x4096, .i32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S8192x4096, .bf16⟩
  | .hbm, ⟨58, _⟩ => ⟨S4096x4096, .bf16⟩
  | .hbm, ⟨59, _⟩ => ⟨S1x4096, .f32⟩
  | .hbm, ⟨60, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  shapeCasts_S8_S1x8x1 : S8.ShapeCasts S1x8x1
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  shapeCasts_S8_S1x1x8 : S8.ShapeCasts S1x1x8
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  gather_S32x4096_S4096x1_S4096x4096_1_0_n_n_0_1_14096_wf : GatherDims.WF S32x4096 S4096x1 S4096x4096 [1] [0] [] [0] [] 1 ![1, 4096]
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v42) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S512x1x4096, .i32⟩
  | .hbm, ⟨11, _⟩ => ⟨S1x8x1, .i32⟩
  | .hbm, ⟨12, _⟩ => ⟨S512x8x4096, .i32⟩
  | .hbm, ⟨13, _⟩ => ⟨S512x8x4096, .i32⟩
  | .hbm, ⟨14, _⟩ => ⟨S512x8x4096, .i32⟩
  | .hbm, ⟨15, _⟩ => ⟨S_, .i32⟩
  | .hbm, ⟨16, _⟩ => ⟨S512x8x4096, .i32⟩
  | .hbm, ⟨17, _⟩ => ⟨S512x8x4096, .i32⟩
  | .hbm, ⟨18, _⟩ => ⟨S4096x4096, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S32x512x1, .i32⟩
  | .hbm, ⟨24, _⟩ => ⟨S1x1x8, .i32⟩
  | .hbm, ⟨25, _⟩ => ⟨S32x512x8, .i32⟩
  | .hbm, ⟨26, _⟩ => ⟨S32x512x8, .i32⟩
  | .hbm, ⟨27, _⟩ => ⟨S32x512x8, .i32⟩
  | .hbm, ⟨28, _⟩ => ⟨S_, .i32⟩
  | .hbm, ⟨29, _⟩ => ⟨S32x512x8, .i32⟩
  | .hbm, ⟨30, _⟩ => ⟨S32x512x8, .i32⟩
  | .hbm, ⟨31, _⟩ => ⟨S32x4096, .i32⟩
  | .hbm, ⟨32, _⟩ => ⟨S_, .i32⟩
  | .hbm, ⟨33, _⟩ => ⟨S32x4096, .i32⟩
  | .hbm, ⟨34, _⟩ => ⟨S32x4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x4096, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x4096, .i32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S8192x4096, .f32⟩
  | .hbm, ⟨58, _⟩ => ⟨S1x4096, .f32⟩
  | .hbm, ⟨59, _⟩ => ⟨S8192x4096, .f32⟩
  | .hbm, ⟨60, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  shapeCasts_S8_S1x8x1 : S8.ShapeCasts S1x8x1
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  shapeCasts_S8_S1x1x8 : S8.ShapeCasts S1x1x8
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S32x4096_S4096x1_S4096x4096_1_0_n_n_0_1_14096_wf : GatherDims.WF S32x4096 S4096x1 S4096x4096 [1] [0] [] [0] [] 1 ![1, 4096]
  dot_S8192x4096_S4096x4096_S8192x4096_1_0_0_1_n_n_wf : DotDims.WF S8192x4096 S4096x4096 S8192x4096 [1] [0] [0] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockSum.lean ====
/-
  A finite sum taken block by block, in any commutative additive monoid (the extended reals are one:
  only commutativity and associativity of `+` are used, so nothing here needs a summand to be finite).

  `upTo f B` is the sum of the first `B` terms of `f : Fin n → M`. It starts at `0`, grows by the next
  block of `b` consecutive terms (`upTo_add`), and at `B = n` is the whole sum (`upTo_all`). A sum over
  `n = q · b` terms accumulated as `q` partial sums of `b` terms each is therefore the sum over all `n`.
-/
import Mathlib.Algebra.BigOperators.Fin

open scoped BigOperators

namespace Cert.BlockSum

variable {M : Type*} [AddCommMonoid M] {n : ℕ}

/-- The first `B` terms of `f`, summed (terms past `n`, if `B` exceeds it, count as zero). -/
def upTo (f : Fin n → M) (B : ℕ) : M :=
  ∑ k ∈ Finset.range B, if h : k < n then f ⟨k, h⟩ else 0

theorem upTo_zero (f : Fin n → M) : upTo f 0 = 0 := by
  unfold upTo; rw [Finset.range_zero, Finset.sum_empty]

/-- Taking `b` more terms adds the block `f B, …, f (B + b - 1)`. -/
theorem upTo_add (f : Fin n → M) (B b : ℕ) (hB : B + b ≤ n) :
    upTo f (B + b) = upTo f B + ∑ kk : Fin b, f ⟨B + kk.val, by have := kk.isLt; omega⟩ := by
  unfold upTo
  rw [Finset.sum_range_add]
  congr 1
  rw [Finset.sum_range]
  exact Finset.sum_congr rfl fun kk _ => dif_pos (by have := kk.isLt; omega)

/-- All `n` terms: the sum itself. -/
theorem upTo_all (f : Fin n → M) : upTo f n = ∑ k : Fin n, f k := by
  unfold upTo
  rw [Finset.sum_range]
  exact Finset.sum_congr rfl fun k _ => by rw [dif_pos k.isLt]

end Cert.BlockSum
-- ==== Proof.Payloads.lean ====
/-
  The three values the kernel body stores, read at one entry `(p, cc)` of the 2048 × 512 output block, over
  the extended reals:
    the reset stores `0`;
    the accumulation stores `acc (p, cc) + ∑ kk < 1024, xb (p, kk) · wb (kk, cc)`, the block product of the
      2048 × 1024 block of the activations with the 1024 × 512 block of the weights added to what the
      accumulator held (the product is taken into a zero accumulator, so it is the bare sum);
    the last step stores `acc (p, cc) + bias (0, cc)`, the bias row broadcast down the rows.
  The narrowing of the operands to bf16 has already happened on the host and is the identity on the extended
  reals; inside the body every cast is between equal shapes.
-/
import proofs.«414645_j79293686219448_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The block product's operand indices: row `p` of the left block, column `cc` of the right one -/

theorem lhs_axis0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_axis1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_axis0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_axis1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The block product into a zero accumulator, at `(p, cc)`: the sum over the 1024 contracted positions. -/
theorem blockProduct_apply (xb : FVec Ideal S2048x1024 .bf16) (wb : FVec Ideal S1024x512 .bf16) (p : Fin 2048) (cc : Fin 512) :
    matmul dot_S2048x1024_S1024x512_S2048x512_1_0_0_1_n_n none xb wb (constant (F := Ideal) S2048x512 .f32 0x00000000#32) (ix2 p cc)
      = ∑ kk : Fin 1024, xb (ix2 p kk) * wb (ix2 kk cc) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p cc) ((ValueIdx.contrEquiv1 dot_S2048x1024_S1024x512_S2048x512_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S2048x1024_S1024x512_S2048x512_1_0_0_1_n_n.rhsIdx (ix2 p cc) ((ValueIdx.contrEquiv1 dot_S2048x1024_S1024x512_S2048x512_1_0_0_1_n_n 1024 rfl rfl).symm k) = ix2 k cc := funext fun a => Fin.ext (by
    match a with
    | ⟨0, _⟩ => exact (rhs_axis0 _ _).trans hk
    | ⟨1, _⟩ => exact rhs_axis1 _ _)
  rw [el, er]

/-! ## The three stored values -/

/-- The reset value is zero everywhere. -/
theorem reset_apply (i : S2048x512.Idx) : k0_pay1 (F := Ideal) i = 0 := by
  unfold k0_pay1
  simp only [shapeCast_self]
  exact Ideal.ofBits_zero_f32

/-- The accumulation: what was there plus the block product. -/
theorem accumulate_apply (acc : Vec Ideal S2048x512 .f32) (xb : Vec Ideal S2048x1024 .bf16) (wb : Vec Ideal S1024x512 .bf16)
    (p : Fin 2048) (cc : Fin 512) :
    k0_pay2 (F := Ideal) acc xb wb (ix2 p cc) = acc (ix2 p cc) + ∑ kk : Fin 1024, xb (ix2 p kk) * wb (ix2 kk cc) := by
  unfold k0_pay2
  simp only [shapeCast_self]
  rw [addf_apply, blockProduct_apply]

/-- The last step: the accumulator plus the bias row. -/
theorem addBias_apply (acc : Vec Ideal S2048x512 .f32) (bb : Vec Ideal S1x512 .f32) (p : Fin 2048) (cc : Fin 512) :
    k0_pay3 (F := Ideal) acc bb (ix2 p cc) = acc (ix2 p cc) + bb (ix2 (0 : Fin 1) cc) := by
  unfold k0_pay3
  simp only [shapeCast_self]
  rw [addf_apply, broadcastTo_1b_ab_apply]

end Cert.KernelIdeal.Payloads

end
-- ==== Proof.Pieces.lean ====
/-
  What one run of the kernel body leaves behind, as a value, in each of the three control cases (at any
  float instance). The body keeps a running total in a scratch buffer that survives from one grid point to
  the next:
    at the first step of a reduction (k = 0) it clears the scratch and then adds the step's block product,
      leaving `accumulate zero xb wb`;
    at a middle step it leaves `accumulate prev xb wb` over what the previous point left;
    at the last step (k = 3) it does the same, and also writes the output block: the new total plus the bias.
  Each buffer is written by whole-buffer stores, so what it holds afterwards is the last store's value, with
  every load inside it read from the whole buffers the body was handed.
-/
import proofs.«414645_j79293686219448_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- First step of a reduction: the scratch is cleared, then the block product is added to the cleared value. -/
theorem scratch_first (c : Dev nD) (i : grid0.Coords) (a3 : Memref sig .tc .vmem S2048x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S2048x512 .f32) (h6 : a6.IsWhole) (a7 : Memref sig .tc .vmem S2048x512 .f32) (h7 : a7.IsWhole)
    (hc0 : cond0_0 i) (hc1 : ¬cond0_1 i)
    (x0 : Vec F S2048x1024 .bf16) (x1 : Vec F S1024x512 .bf16) (x2 : Vec F S1x512 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x512) hz, View.readCov_unit_zero (S := S2048x512) _ hz]
  simp only [View.readAt_eq_ld, h3.read_unread, h4.read_unread, h5.read_unread, h6.read_unread, h7.read_unread, View.ld_unit_zero (S := S2048x512) hz, View.ld_unit_zero (S := S2048x1024) hz, View.ld_unit_zero (S := S1024x512) hz, View.ld_unit_zero (S := S1x512) hz]

/-- A middle step: the block product added to what the previous point left. -/
theorem scratch_middle (c : Dev nD) (i : grid0.Coords) (a3 : Memref sig .tc .vmem S2048x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S2048x512 .f32) (h6 : a6.IsWhole) (a7 : Memref sig .tc .vmem S2048x512 .f32) (h7 : a7.IsWhole)
    (hc0 : ¬cond0_0 i) (hc1 : ¬cond0_1 i)
    (x0 : Vec F S2048x1024 .bf16) (x1 : Vec F S1024x512 .bf16) (x2 : Vec F S1x512 .f32) (xs0 : Vec F S2048x512 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h6.read_unread, h7.read_unread, View.ld_unit_zero (S := S2048x512) hz, View.ld_unit_zero (S := S2048x1024) hz, View.ld_unit_zero (S := S1024x512) hz, View.ld_unit_zero (S := S1x512) hz]

/-- The last step leaves the same in the scratch … -/
theorem scratch_last (c : Dev nD) (i : grid0.Coords) (a3 : Memref sig .tc .vmem S2048x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S2048x512 .f32) (h6 : a6.IsWhole) (a7 : Memref sig .tc .vmem S2048x512 .f32) (h7 : a7.IsWhole)
    (hc0 : ¬cond0_0 i) (hc1 : cond0_1 i)
    (x0 : Vec F S2048x1024 .bf16) (x1 : Vec F S1024x512 .bf16) (x2 : Vec F S1x512 .f32) (xs0 : Vec F S2048x512 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h6.read_unread, h7.read_unread, View.ld_unit_zero (S := S2048x512) hz, View.ld_unit_zero (S := S2048x1024) hz, View.ld_unit_zero (S := S1024x512) hz, View.ld_unit_zero (S := S1x512) hz]

/-- … and writes the output block: that total plus the bias row. -/
theorem output_last (c : Dev nD) (i : grid0.Coords) (a3 : Memref sig .tc .vmem S2048x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S2048x512 .f32) (h6 : a6.IsWhole) (a7 : Memref sig .tc .vmem S2048x512 .f32) (h7 : a7.IsWhole)
    (hc0 : ¬cond0_0 i) (hc1 : cond0_1 i)
    (x0 : Vec F S2048x1024 .bf16) (x1 : Vec F S1024x512 .bf16) (x2 : Vec F S1x512 .f32) (xs0 : Vec F S2048x512 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S2048x512) _ hz, View.readAt_eq_ld, h3.read_unread, h4.read_unread, h5.read_unread, h6.read_unread, h7.read_unread, View.ld_unit_zero (S := S2048x512) hz, View.ld_unit_zero (S := S2048x1024) hz, View.ld_unit_zero (S := S1024x512) hz, View.ld_unit_zero (S := S1x512) hz]

end Cert.KernelIdeal.Pieces

end
-- ==== Proof.Steps.lean ====
/-
  The running total from one grid point to the next (at any float instance). The 128 grid points are the
  32 output blocks (4 block rows × 8 block columns) times the 4 steps of the reduction over the contracted
  axis, the step index moving fastest: point `t` is step `t % 4` of output block `t / 4`.
    At step 0 the scratch ends at `accumulate zero xblk wblk`;
    at steps 1, 2, 3 at `accumulate (what point t - 1 left) xblk wblk`;
    and at step 3 the output buffer ends at that total plus the bias block.
  `xblk`, `wblk`, `bblk` are the blocks of the three operand arrays the pipeline has staged at the point.
-/
import proofs.«414645_j79293686219448_1_alg».proof.Proof.Pieces

noncomputable section

namespace Cert.KernelIdeal.Steps

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The 2048 × 1024 block of the activations staged at point `t`. -/
abbrev xblk (c : Dev nD) (t : Fin cfg0.N) : Vec F S2048x1024 .bf16 := iblk m c 0 t
/-- The 1024 × 512 block of the weights staged at point `t`. -/
abbrev wblk (c : Dev nD) (t : Fin cfg0.N) : Vec F S1024x512 .bf16 := iblk m c 1 t
/-- The 1 × 512 block of the bias row staged at point `t`. -/
abbrev bblk (c : Dev nD) (t : Fin cfg0.N) : Vec F S1x512 .f32 := iblk m c 2 t
/-- What the scratch holds after point `n`. -/
abbrev total (c : Dev nD) (n : ℕ) (hn : n < cfg0.N) : Vec F S2048x512 .f32 := (outsAt0 m c n hn).2

theorem total_first (c : Dev nD) (t : Fin cfg0.N) (h0 : t.val % 4 = 0) :
    total m c t.val t.isLt = k0_pay2 (k0_pay1 (F := F)) (xblk m c t) (wblk m c t) := by
  have h1 : ¬t.val % 4 = 3 := by omega
  show (outsAt0 m c t.val t.isLt).2 = _
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)

theorem total_next (c : Dev nD) (t : Fin cfg0.N) (h0 : ¬t.val % 4 = 0) :
    total m c t.val t.isLt
      = k0_pay2 (total m c (t.val - 1) (Nat.lt_of_le_of_lt (Nat.sub_le _ _) t.isLt)) (xblk m c t) (wblk m c t) := by
  show (outsAt0 m c t.val t.isLt).2 = _
  by_cases h1 : t.val % 4 = 3
  · rw [outsAt0_C m c t h0 h1]
    dsimp only
    exact Pieces.scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (total m c (t.val - 1) (Nat.lt_of_le_of_lt (Nat.sub_le _ _) t.isLt))
  · rw [outsAt0_B m c t h0 h1]
    dsimp only
    exact Pieces.scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (total m c (t.val - 1) (Nat.lt_of_le_of_lt (Nat.sub_le _ _) t.isLt))

/-- At the last step of a reduction the output buffer ends at the new total plus the bias block. -/
theorem output_last (c : Dev nD) (t : Fin cfg0.N) (h1 : t.val % 4 = 3) :
    (outsAt0 m c t.val t.isLt).1 = k0_pay3 (total m c t.val t.isLt) (bblk m c t) := by
  have h0 : ¬t.val % 4 = 0 := by omega
  rw [total_next m c t h0]
  rw [outsAt0_C m c t h0 h1]
  dsimp only
  exact Pieces.output_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (total m c (t.val - 1) (Nat.lt_of_le_of_lt (Nat.sub_le _ _) t.isLt))

end Cert.KernelIdeal.Steps

end
-- ==== Proof.Blocks.lean ====
/-
  Where a staged block sits in its array, and what the arrays are.
  Point `t` works on block row `t / 32` and block column `t / 4 % 8` of the output, at reduction step `t % 4`:
    the activations' block is rows `t / 32 · 2048 + p`, columns `t % 4 · 1024 + kk` of the 8192 × 4096 array;
    the weights' block is rows `t % 4 · 1024 + kk`, columns `t / 4 % 8 · 512 + cc` of the 4096 × 4096 array;
    the bias block is columns `t / 4 % 8 · 512 + cc` of the 1 × 4096 row;
    the output block is rows `t / 32 · 2048 + p`, columns `t / 4 % 8 · 512 + cc`.
  The three arrays themselves are written by the host before the call: the activations and the dequantized
  weights narrowed to bf16 (the identity on the extended reals), and the bias vector reshaped to one row.
  (That the weights' array is the reference's dequantized weights is shown where the two programs meet.)
-/
import proofs.«414645_j79293686219448_1_alg».proof.Proof.Steps
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.KernelIdeal.Steps Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ)

/-- The activations as the call finds them (already narrowed to bf16). -/
abbrev xarr (c : Dev nD) : Vec F S8192x4096 .bf16 := V m c main_v42
/-- The dequantized weights as the call finds them (already narrowed to bf16). -/
abbrev warr (c : Dev nD) : Vec F S4096x4096 .bf16 := V m c main_v43
/-- The bias as the call finds it: one row. -/
abbrev barr (c : Dev nD) : Vec F S1x4096 .f32 := V m c main_v44

/-- The block indices of the four windows at every grid point, decided over the grid. -/
theorem block_index : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

theorem xblk_apply (c : Dev nD) (t : Fin cfg0.N) (p : Fin 2048) (kk : Fin 1024) (R : Fin 8192) (K : Fin 4096)
    (hR : R.val = t.val / 32 * 2048 + p.val) (hK : K.val = t.val % 4 * 1024 + kk.val) :
    xblk m c t (ix2 p kk) = xarr m c (ix2 R K) := by
  obtain ⟨e0, e1, -⟩ := block_index t
  show iblk m c 0 t (ix2 p kk) = _
  unfold iblk
  rw [View.read_apply]
  show V m c main_v42 _ = V m c main_v42 _
  congr 1
  funext a
  apply Fin.ext
  match a with
  | ⟨0, _⟩ => show win0_0.index t (0 : Fin 2) * 2048 + 1 * p.val = R.val; rw [e0, hR]; omega
  | ⟨1, _⟩ => show win0_0.index t (1 : Fin 2) * 1024 + 1 * kk.val = K.val; rw [e1, hK]; omega

theorem wblk_apply (c : Dev nD) (t : Fin cfg0.N) (kk : Fin 1024) (cc : Fin 512) (K : Fin 4096) (C : Fin 4096)
    (hK : K.val = t.val % 4 * 1024 + kk.val) (hC : C.val = t.val / 4 % 8 * 512 + cc.val) :
    wblk m c t (ix2 kk cc) = warr m c (ix2 K C) := by
  obtain ⟨-, -, e0, e1, -⟩ := block_index t
  show iblk m c 1 t (ix2 kk cc) = _
  unfold iblk
  rw [View.read_apply]
  show V m c main_v43 _ = V m c main_v43 _
  congr 1
  funext a
  apply Fin.ext
  match a with
  | ⟨0, _⟩ => show win0_1.index t (0 : Fin 2) * 1024 + 1 * kk.val = K.val; rw [e0, hK]; omega
  | ⟨1, _⟩ => show win0_1.index t (1 : Fin 2) * 512 + 1 * cc.val = C.val; rw [e1, hC]; omega

theorem bblk_apply (c : Dev nD) (t : Fin cfg0.N) (cc : Fin 512) (C : Fin 4096)
    (hC : C.val = t.val / 4 % 8 * 512 + cc.val) :
    bblk m c t (ix2 (0 : Fin 1) cc) = barr m c (ix2 (0 : Fin 1) C) := by
  obtain ⟨-, -, -, -, e0, e1, -⟩ := block_index t
  show iblk m c 2 t (ix2 (0 : Fin 1) cc) = _
  unfold iblk
  rw [View.read_apply]
  show V m c main_v44 _ = V m c main_v44 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * cc.val = C.val; rw [e1, hC]; omega

end Cert.KernelIdeal.Blocks

/-! ## The arrays, from the host operations before the call (at the extended reals) -/

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The activations' array is the first argument narrowed to bf16: entry by entry the same extended real. -/
theorem xarr_apply (c : Dev nD) (i : S8192x4096.Idx) :
    xarr m c i = m ((c : Thread nD τ).loc main_arg0) i := by
  have e : xarr m c
      = (truncf .bf16 (m ((c : Thread nD τ).loc main_arg0) : FVec Ideal S8192x4096 .f32) Facts₀.bitsLt_bf16_f32 : FVec Ideal S8192x4096 .bf16) := by
    dsimp only [xarr, V, hostOps0]; after_results
  exact congrFun e i

/-- The bias row is the last argument reshaped to 1 × 4096. -/
theorem barr_apply (c : Dev nD) (C : Fin 4096) :
    barr m c (ix2 (0 : Fin 1) C) = m ((c : Thread nD τ).loc main_arg5) (ix1 C) := by
  have e : (V m c main_v44 : S1x4096.Idx → EReal)
      = shapeCast S1x4096 (m ((c : Thread nD τ).loc main_arg5)) Facts₀.shapeCasts_S4096_S1x4096 := by
    dsimp only [V, hostOps0]; after_results; rfl
  exact (congrFun e _).trans (shapeCast_a_1a_apply _ _ _ _)

end Cert.KernelIdeal.Blocks

end
-- ==== Proof.Accum.lean ====
/-
  The running total in closed form, over the extended reals. Write `x` for the activations' array and `w`
  for the weights' array as the call finds them. After grid point `n` — step `n % 4` of the output block at
  block row `n / 32`, block column `n / 4 % 8` — entry `(p, cc)` of the scratch holds
      ∑ k < (n % 4 + 1) · 1024,  x (R, k) · w (k, C),     R = n / 32 · 2048 + p,  C = n / 4 % 8 · 512 + cc:
  the first `(n % 4 + 1)` blocks of the dot product of row `R` of `x` with column `C` of `w`. By induction on the
  point: step 0 starts from zero and adds the first 1024 terms; each later step adds the next 1024 to what the
  point before (same output block, previous step) left. Only the monoid laws of `+` are used, so the sum may
  hold infinite terms. At step 3 all 4096 terms are in, and the output block is that sum plus the bias.
-/
import proofs.«414645_j79293686219448_1_alg».proof.Proof.LibBlockSum
import proofs.«414645_j79293686219448_1_alg».proof.Proof.Payloads
import proofs.«414645_j79293686219448_1_alg».proof.Proof.Blocks

noncomputable section

namespace Cert.KernelIdeal.Accum

open Cert.KernelIdeal Cert.KernelIdeal.Gen Cert.KernelIdeal.Steps Cert.KernelIdeal.Blocks
open Idealize.ShloMosaic Idealize.ShloMosaic.TcCoe Idealize.SL.Sem Idealize.ShloMosaic.ValueIdx

variable (m : (ℓ : Loc nD τ sig) → Buf (Elt Ideal) ℓ)

/-- Term `k` of the dot product of row `R` of the activations with column `C` of the weights. -/
def term (c : Dev nD) (R : Fin 8192) (C : Fin 4096) (k : Fin 4096) : EReal :=
  xarr m c (ix2 R k) * warr m c (ix2 k C)

/-- One step's block product is the next 1024 terms of that dot product. -/
theorem block_terms (c : Dev nD) (t : Fin cfg0.N) (p : Fin 2048) (cc : Fin 512) (R : Fin 8192) (C : Fin 4096)
    (hR : R.val = t.val / 32 * 2048 + p.val) (hC : C.val = t.val / 4 % 8 * 512 + cc.val) (B : ℕ) (hB : B = t.val % 4 * 1024) :
    ∑ kk : Fin 1024, xblk m c t (ix2 p kk) * wblk m c t (ix2 kk cc)
      = ∑ kk : Fin 1024, term m c R C ⟨B + kk.val, by have := kk.isLt; have := t.isLt; omega⟩ := by
  refine Finset.sum_congr rfl fun kk _ => ?_
  unfold term
  rw [xblk_apply m c t p kk R ⟨B + kk.val, by have := kk.isLt; omega⟩ hR (by show B + kk.val = _; omega),
    wblk_apply m c t kk cc ⟨B + kk.val, by have := kk.isLt; omega⟩ C (by show B + kk.val = _; omega) hC]

/-- THE INVARIANT: what the scratch holds after point `n`. -/
theorem total_apply (c : Dev nD) : ∀ (n : ℕ) (hn : n < cfg0.N) (p : Fin 2048) (cc : Fin 512) (R : Fin 8192) (C : Fin 4096),
    R.val = n / 32 * 2048 + p.val → C.val = n / 4 % 8 * 512 + cc.val →
    total m c n hn (ix2 p cc) = BlockSum.upTo (term m c R C) ((n % 4 + 1) * 1024) := by
  intro n
  induction n with
  | zero =>
    intro hn p cc R C hR hC
    refine (congrFun (total_first m c ⟨0, hn⟩ rfl) (ix2 p cc)).trans ?_
    refine (Payloads.accumulate_apply _ (xblk m c ⟨0, hn⟩) (wblk m c ⟨0, hn⟩) p cc).trans ?_
    rw [Payloads.reset_apply, zero_add, block_terms m c ⟨0, hn⟩ p cc R C hR hC 0 rfl]
    rw [show (0 % 4 + 1) * 1024 = 0 + 1024 from rfl, BlockSum.upTo_add (term m c R C) 0 1024 (by omega), BlockSum.upTo_zero, zero_add]
  | succ n ih =>
    intro hn p cc R C hR hC
    have hN : n + 1 < 128 := lt_of_lt_of_eq hn (show cfg0.N = 128 from N_0)
    by_cases h0 : (n + 1) % 4 = 0
    · refine (congrFun (total_first m c ⟨n + 1, hn⟩ h0) (ix2 p cc)).trans ?_
      refine (Payloads.accumulate_apply _ (xblk m c ⟨n + 1, hn⟩) (wblk m c ⟨n + 1, hn⟩) p cc).trans ?_
      rw [Payloads.reset_apply, zero_add, block_terms m c ⟨n + 1, hn⟩ p cc R C hR hC 0 (by show 0 = (n + 1) % 4 * 1024; omega)]
      rw [show ((n + 1) % 4 + 1) * 1024 = 0 + 1024 from by omega, BlockSum.upTo_add (term m c R C) 0 1024 (by omega), BlockSum.upTo_zero, zero_add]
    · refine (congrFun (total_next m c ⟨n + 1, hn⟩ h0) (ix2 p cc)).trans ?_
      refine (Payloads.accumulate_apply (total m c n (Nat.lt_of_succ_lt hn)) (xblk m c ⟨n + 1, hn⟩) (wblk m c ⟨n + 1, hn⟩) p cc).trans ?_
      have hprev := ih (Nat.lt_of_succ_lt hn) p cc R C (by rw [hR]; omega) (by rw [hC]; omega)
      rw [hprev,
        block_terms m c ⟨n + 1, hn⟩ p cc R C hR hC ((n % 4 + 1) * 1024) (by show _ = (n + 1) % 4 * 1024; omega)]
      rw [show ((n + 1) % 4 + 1) * 1024 = (n % 4 + 1) * 1024 + 1024 from by omega, BlockSum.upTo_add (term m c R C) ((n % 4 + 1) * 1024) 1024 (by omega)]

/-- At the last step of a reduction the scratch holds the whole dot product … -/
theorem total_last (c : Dev nD) (t : Fin cfg0.N) (h3 : t.val % 4 = 3) (p : Fin 2048) (cc : Fin 512) (R : Fin 8192) (C : Fin 4096)
    (hR : R.val = t.val / 32 * 2048 + p.val) (hC : C.val = t.val / 4 % 8 * 512 + cc.val) :
    total m c t.val t.isLt (ix2 p cc) = ∑ k : Fin 4096, term m c R C k := by
  rw [total_apply m c t.val t.isLt p cc R C hR hC, show (t.val % 4 + 1) * 1024 = 4096 from by omega, BlockSum.upTo_all]

/-- … and the output block, written there, holds it plus the bias. -/
theorem output_apply (c : Dev nD) (t : Fin cfg0.N) (h3 : t.val % 4 = 3) (p : Fin 2048) (cc : Fin 512) (R : Fin 8192) (C : Fin 4096)
    (hR : R.val = t.val / 32 * 2048 + p.val) (hC : C.val = t.val / 4 % 8 * 512 + cc.val) :
    (outsAt0 m c t.val t.isLt).1 (ix2 p cc) = (∑ k : Fin 4096, term m c R C k) + barr m c (ix2 (0 : Fin 1) C) := by
  refine (congrFun (Steps.output_last m c t h3) (ix2 p cc)).trans ?_
  refine (Payloads.addBias_apply (total m c t.val t.isLt) (bblk m c t) p cc).trans ?_
  rw [total_last m c t h3 p cc R C hR hC, bblk_apply m c t cc C hC]

end Cert.KernelIdeal.Accum

end
-- ==== Proof.KernelValue.lean ====
/-
  The kernel's result array, over the extended reals: entry `(R, C)` ends at
      ∑ k < 4096, x (R, k) · w (k, C)  +  bias (0, C),
  `x`, `w`, `bias` the three operand arrays as the call finds them. The output is written back only at the last
  step of each reduction (the points `t` with `t % 4 = 3`), block `(t / 32, t / 4 % 8)` of 2048 × 512 entries; those
  32 blocks tile the 8192 × 4096 array — entry `(R, C)` lies in the block written at point
  `((R / 2048) · 8 + C / 512) · 4 + 3` — and what each of them receives is the formula above read through the
  block (the invariant of the running total at step 3).
-/
import proofs.«414645_j79293686219448_1_alg».proof.Proof.Accum
import proofs.«414645_j79293686219448_1_alg».proof.Proof.Gen.KernelIdeal.Value

noncomputable section

namespace Cert.KernelIdeal.KernelValue

open Cert.KernelIdeal Cert.KernelIdeal.Gen Cert.KernelIdeal.Steps Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The product of the activations with the weights, plus the bias row on every row. -/
def product (c : Dev nD) : Vec Ideal S8192x4096 .f32 := fun i =>
  (∑ k : Fin 4096, Accum.term m c (i 0) (i 1) k) + barr m c (ix2 (0 : Fin 1) (i 1))

/-- The same, as contents of the result array. -/
abbrev result (c : Dev nD) : Buf (Elt Ideal) ((c : Thread nD τ).loc main_v45) := product m c

/-- What a write-back writes is the product read through the block it writes. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 128 := lt_of_lt_of_eq t.isLt (show cfg0.N = 128 from N_0)
  obtain ⟨-, -, -, -, -, -, e0, e1⟩ := block_index t
  rw [Value.flushed3]
  funext j
  rw [View.read_apply]
  have hj0 : (j 0).val < 2048 := (j 0).isLt
  have hj1 : (j 1).val < 512 := (j 1).isLt
  have hR : t.val / 32 * 2048 + (j 0).val < 8192 := by omega
  have hC : t.val / 4 % 8 * 512 + (j 1).val < 4096 := by omega
  have key := Accum.output_apply m c t h3 ⟨(j 0).val, hj0⟩ ⟨(j 1).val, hj1⟩
    ⟨t.val / 32 * 2048 + (j 0).val, hR⟩ ⟨t.val / 4 % 8 * 512 + (j 1).val, hC⟩ rfl rfl
  have r0 : (((cfg0.win 3).blk t).view.emb j) 0 = (⟨t.val / 32 * 2048 + (j 0).val, hR⟩ : Fin 8192) :=
    Fin.ext (by show win0_3.index t (0 : Fin 2) * 2048 + 1 * (j 0).val = t.val / 32 * 2048 + (j 0).val; rw [e0]; omega)
  have r1 : (((cfg0.win 3).blk t).view.emb j) 1 = (⟨t.val / 4 % 8 * 512 + (j 1).val, hC⟩ : Fin 4096) :=
    Fin.ext (by show win0_3.index t (1 : Fin 2) * 512 + 1 * (j 1).val = t.val / 4 % 8 * 512 + (j 1).val; rw [e1]; omega)
  show (outsAt0 m c t.val t.isLt).1 _ = product m c _
  unfold product
  rw [r0, r1]
  refine Eq.trans (congrArg (outsAt0 m c t.val t.isLt).1 (funext fun a => ?_)) key
  match a with
  | ⟨0, _⟩ => rfl
  | ⟨1, _⟩ => rfl

/-- An entry is in the block written at `t` iff each coordinate is in the block's range on its axis. -/
theorem mem_block (t : Fin cfg0.N) (i : S8192x4096.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v45).slice (win0_3.rect t)).set ↔ _
  rw [View.set_slice_whole, Rect.mem_set_unit]
  exact Iff.rfl

/-- Every entry of the result array is in a block that is written back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨tn, htn⟩ : ∃ tn, tn = ((i 0).val / 2048 * 8 + (i 1).val / 512) * 4 + 3 := ⟨_, rfl⟩
  have hlt : tn < cfg0.N := by rw [show cfg0.N = 128 from N_0]; omega
  obtain ⟨-, -, -, -, -, -, e0, e1⟩ := block_index ⟨tn, hlt⟩
  have e0' : win0_3.index ⟨tn, hlt⟩ (0 : Fin 2) = tn / 32 := e0
  have e1' : win0_3.index ⟨tn, hlt⟩ (1 : Fin 2) = tn / 4 % 8 := e1
  refine ⟨⟨tn, hlt⟩, (flush0_3 _).mpr (by show tn % 4 = 3; omega), ?_⟩
  rw [mem_block]
  intro a
  match a with
  | ⟨0, _⟩ => show win0_3.index ⟨tn, hlt⟩ (0 : Fin 2) * 2048 ≤ (i 0).val ∧ (i 0).val < win0_3.index ⟨tn, hlt⟩ (0 : Fin 2) * 2048 + 2048; rw [e0']; omega
  | ⟨1, _⟩ => show win0_3.index ⟨tn, hlt⟩ (1 : Fin 2) * 512 ≤ (i 1).val ∧ (i 1).val < win0_3.index ⟨tn, hlt⟩ (1 : Fin 2) * 512 + 512; rw [e1']; omega

/-- So the result array ends holding the product. -/
theorem final (c : Dev nD) : (dats m 0 c).arrAt 3 cfg0.N = result m c :=
  (dats m 0 c).arrAt_eq_of_cover 3 (result m c) (flushed_eq m c) covered

/-- The kernel's run, read: the result array at the product, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KernelValue

end
-- ==== Proof.Bridge.lean ====
/-
  The reference computes the same array. It dequantizes the weights with the very host operations the kernel's
  program runs before its call (so the two weight arrays are one term), multiplies the activations by them in a
  single dot product over all 4096 contracted positions, and adds the bias broadcast down the rows:
      reference (R, C) = ∑ k < 4096, x (R, k) · w (k, C) + bias C.
  The kernel's result array is the same sum — its operands narrowed to bf16 first, which changes nothing on the
  extended reals, and the 4096 terms taken 1024 at a time — plus the same bias. No law beyond the commutative
  monoid of `+` joins the two sides, so the finiteness of the inputs is not used.
-/
import proofs.«414645_j79293686219448_1_alg».proof.Defs
import proofs.«414645_j79293686219448_1_alg».proof.Proof.KernelValue
import proofs.«414645_j79293686219448_1_alg».proof.Proof.Gen.ReferenceIdeal.Run
import proofs.«414645_j79293686219448_1_alg».proof.Proof.Gen.ReferenceIdeal.Read
import proofs.«414645_j79293686219448_1_alg».proof.Proof.Gen.Pre_finite_inputs
import Idealize.ShloMosaic.Lib.StableHlo.Run

noncomputable section

namespace Cert.Bridge

open Idealize.ShloMosaic Idealize.ShloMosaic.TcCoe Idealize.SL.Sem Idealize.ShloMosaic.ValueIdx Idealize.ShloMosaic.StableHlo
open Cert.KernelIdeal.Blocks

variable (m : (ℓ : Loc Cert.KernelIdeal.nD Cert.KernelIdeal.τ Cert.KernelIdeal.sig) → Buf (Elt Ideal) ℓ)

set_option maxRecDepth 8192 in
set_option maxHeartbeats 4000000 in
/-- The dequantized weights: the array the kernel's host operations leave is the reference's stage, narrowed to bf16
    (the same host operations, term for term), so entry by entry the same extended real. -/
theorem weights_eq (c : Dev Cert.KernelIdeal.nD) (i : Cert.KernelIdeal.S4096x4096.Idx) :
    warr m c i = Cert.ReferenceIdeal.Read.val_main_v41 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) i := by
  have e : warr m c
      = (truncf .bf16 (Cert.ReferenceIdeal.Read.val_main_v41 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) : FVec Ideal Cert.KernelIdeal.S4096x4096 .f32)
          Cert.KernelIdeal.Facts₀.bitsLt_bf16_f32 : FVec Ideal Cert.KernelIdeal.S4096x4096 .bf16) := by
    dsimp only [warr, Cert.KernelIdeal.Gen.V, Cert.KernelIdeal.Gen.hostOps0]; after_results_simp <;> rfl
  exact congrFun e i

/-- At entry `(R, C)` the reference's dot product reads the activations at `(R, k)` … -/
theorem lhs_index (R : Fin 8192) (C : Fin 4096) (k : Fin 4096) : Cert.ReferenceIdeal.Read.lidx_main_v42 (ix2 R C) k = ix2 R k :=
  funext fun a => by match a with | ⟨0, _⟩ => rfl | ⟨1, _⟩ => rfl
/-- … and the weights at `(k, C)`; -/
theorem rhs_index (R : Fin 8192) (C : Fin 4096) (k : Fin 4096) : Cert.ReferenceIdeal.Read.ridx_main_v42 (ix2 R C) k = ix2 k C :=
  funext fun a => by match a with | ⟨0, _⟩ => rfl | ⟨1, _⟩ => rfl
/-- its two broadcasts read the bias at `C`. -/
theorem bias_index (R : Fin 8192) (C : Fin 4096) : Cert.ReferenceIdeal.Read.idx_main_v43 (Cert.ReferenceIdeal.Read.idx_main_v44 (ix2 R C)) = ix1 C :=
  funext fun a => by match a with | ⟨0, _⟩ => rfl

/-- The kernel's product at entry `(R, C)`. -/
theorem product_apply (c : Dev Cert.KernelIdeal.nD) (R : Fin 8192) (C : Fin 4096) :
    Cert.KernelIdeal.KernelValue.product m c (ix2 R C) = (∑ k : Fin 4096, Cert.KernelIdeal.Accum.term m c R C k) + barr m c (ix2 (0 : Fin 1) C) := rfl

set_option maxHeartbeats 2000000 in
/-- The reference's result, entry by entry, is the kernel's product. -/
theorem reference_eq (c : Dev Cert.KernelIdeal.nD) :
    Cert.ReferenceIdeal.Read.val_main_v45 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))
      = Cert.KernelIdeal.KernelValue.result m c := by
  funext i
  obtain ⟨R, C, rfl⟩ : ∃ (R : Fin 8192) (C : Fin 4096), i = ix2 R C := ⟨i 0, i 1, eq_ix2 i⟩
  rw [Cert.ReferenceIdeal.Read.val_main_v45_apply, Cert.ReferenceIdeal.Read.val_main_v42_apply, Cert.ReferenceIdeal.Read.val_main_v44_apply, Cert.ReferenceIdeal.Read.val_main_v43_apply,
    Ideal.addf_def, bias_index]
  refine Eq.trans ?_ (product_apply m c R C).symm
  unfold Cert.KernelIdeal.Accum.term
  rw [barr_apply m c C]
  refine congrArg₂ (fun a b : EReal => a + b) (Finset.sum_congr rfl fun k _ => ?_) rfl
  rw [lhs_index, rhs_index, xarr_apply m c, weights_eq m c]

/-- Both idealized programs, from memories agreeing on the arguments, end with the same result array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v45_eq _ _ _ _ _ _).trans (reference_eq m c)

end Cert.Bridge

end
-- ==== Proof.lean ====
/-
  Kernel: a linear layer with int4 group-quantized weights. The host dequantizes the weights
  (scale · (nibble − zero point), gathered by group), narrows activations and weights to bf16, and a tiled
  matrix product accumulates `x · w` over four blocks of the contracted axis into a scratch total, adding the bias
  at the last block. Reference: the same dequantization, `x @ w + bias` in one dot product.
  Over the extended reals both are `∑ k, x (R, k) · w (k, C) + bias C`: narrowing is the identity, and a sum taken
  1024 terms at a time is the sum (Proof/LibBlockSum.lean, Proof/Accum.lean, Proof/KernelValue.lean, Proof/Bridge.lean).
  The three programs run without a fault and leave their arguments unchanged; the idealization rewrote nothing.
-/
import proofs.«414645_j79293686219448_1_alg».proof.Defs
import proofs.«414645_j79293686219448_1_alg».proof.Proof.Gen.Kernel
import proofs.«414645_j79293686219448_1_alg».proof.Proof.Gen.Kernel.Skeleton
import proofs.«414645_j79293686219448_1_alg».proof.Proof.Gen.Kernel.Launch
import proofs.«414645_j79293686219448_1_alg».proof.Proof.Gen.Kernel.Points
import proofs.«414645_j79293686219448_1_alg».proof.Proof.Gen.Kernel.Frame
import proofs.«414645_j79293686219448_1_alg».proof.Proof.Gen.KernelIdeal
import proofs.«414645_j79293686219448_1_alg».proof.Proof.Gen.KernelIdeal.Skeleton
import proofs.«414645_j79293686219448_1_alg».proof.Proof.Gen.KernelIdeal.Launch
import proofs.«414645_j79293686219448_1_alg».proof.Proof.Gen.KernelIdeal.Points
import proofs.«414645_j79293686219448_1_alg».proof.Proof.Gen.KernelIdeal.Frame
import proofs.«414645_j79293686219448_1_alg».proof.Proof.Gen.ReferenceIdeal
import proofs.«414645_j79293686219448_1_alg».proof.Proof.Gen.ReferenceIdeal.Run
import proofs.«414645_j79293686219448_1_alg».proof.Proof.Gen.Pre_finite_inputs
import proofs.«414645_j79293686219448_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Bridge.algebraic⟩

end Cert.Proof

end
